-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S384x128 .f32) (main_arg8 : FVec F S128 .f32) (main_arg9 : FVec F S128x128 .f32) (main_arg10 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S384x128 .f32 := Host.absf main_arg7
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : FVec F S100000x128 .f32) (main_arg1 : IVec S2x500000 32) (main_arg2 : IVec S2x500000 32) (main_arg3 : IVec S2x500000 32) (main_arg4 : FVec F S3x128x128 .f32) (main_arg5 : FVec F S3x128 .f32) (main_arg6 : FVec F S3x128x128 .f32) (main_arg7 : FVec F S384x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_arg10 main_v13 main_v16
-- ==== Kernel.lean ====
abbrev S100000x128 : Shape := ⟨2, ![100000, 128]⟩
abbrev S2x500000 : Shape := ⟨2, ![2, 500000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S2000x128 : Shape := ⟨2, ![2000, 128]⟩
abbrev S1x128x128 : Shape := ⟨3, ![1, 128, 128]⟩
abbrev S1x128 : Shape := ⟨2, ![1, 128]⟩
abbrev S2000x384 : Shape := ⟨2, ![2000, 384]⟩

abbrev nBuf : Space → Nat
  | .hbm => 99
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S2x500000, .i32⟩
  | .hbm, ⟨3, _⟩ => ⟨S2x500000, .i32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .f32⟩
  | .hbm, ⟨25, _⟩ => ⟨S100000x128, .f32⟩
  | .hbm, ⟨26, _⟩ => ⟨S500000x1, .i32⟩
  | .hbm, ⟨27, _⟩ => ⟨S100000x128, .f32⟩
  | .hbm, ⟨28, _⟩ => ⟨S_, .f32⟩
  | .hbm, ⟨29, _⟩ => ⟨S500000, .f32⟩
  | .hbm, ⟨30, _⟩ => ⟨S_, .f32⟩
  | .hbm, ⟨31, _⟩ => ⟨S100000, .f32⟩
  | .hbm, ⟨32, _⟩ => ⟨S500000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x500000, .i32⟩
  | .hbm, ⟨41, _⟩ => ⟨S500000, .i32⟩
  | .hbm, ⟨42, _⟩ => ⟨S1x500000, .i32⟩
  | .hbm, ⟨43, _⟩ => ⟨S500000, .i32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x128, .f32⟩
  | .hbm, ⟨53, _⟩ => ⟨S_, .f32⟩
  | .hbm, ⟨54, _⟩ => ⟨S100000x128, .f32⟩
  | .hbm, ⟨55, _⟩ => ⟨S500000x1, .i32⟩
  | .hbm, ⟨56, _⟩ => ⟨S100000x128, .f32⟩
  | .hbm, ⟨57, _⟩ => ⟨S_, .f32⟩
  | .hbm, ⟨58, _⟩ => ⟨S500000, .f32⟩
  | .hbm, ⟨59, _⟩ => ⟨S_, .f32⟩
  | .hbm, ⟨60, _⟩ => ⟨S100000, .f32⟩
  | .hbm, ⟨61, _⟩ => ⟨S500000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S1x500000, .i32⟩
  | .hbm, ⟨70, _⟩ => ⟨S500000, .i32⟩
  | .hbm, ⟨71, _⟩ => ⟨S1x500000, .i32⟩
  | .hbm, ⟨72, _⟩ => ⟨S500000, .i32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x128, .f32⟩
  | .hbm, ⟨82, _⟩ => ⟨S_, .f32⟩
  | .hbm, ⟨83, _⟩ => ⟨S100000x128, .f32⟩
  | .hbm, ⟨84, _⟩ => ⟨S500000x1, .i32⟩
  | .hbm, ⟨85, _⟩ => ⟨S100000x128, .f32⟩
  | .hbm, ⟨86, _⟩ => ⟨S_, .f32⟩
  | .hbm, ⟨87, _⟩ => ⟨S500000, .f32⟩
  | .hbm, ⟨88, _⟩ => ⟨S_, .f32⟩
  | .hbm, ⟨89, _⟩ => ⟨S100000, .f32⟩
  | .hbm, ⟨90, _⟩ => ⟨S500000x1, .i32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S3x128x128, .f32⟩
  | .local _ .vmem, ⟨9, _⟩ => ⟨S3x128, .f32⟩
  | .local _ .vmem, ⟨10, _⟩ => ⟨S3x128x128, .f32⟩
  | .local _ .vmem, ⟨11, _⟩ => ⟨S384x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S2000x128, .f32⟩
  | .local _ .vmem, ⟨16, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  concatenates_S2000x128_S2000x128_S2000x128_S2000x384_d1 : Shape.Concatenates [S2000x128, S2000x128, S2000x128] S2000x384 1
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S2000x128_S128x128_S2000x128_1_0_0_1_n_n_wf : DotDims.WF S2000x128 S128x128 S2000x128 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128x128.size a ≤ S3x128x128.size a
  hwx0_6 : ∀ i : grid0.Coords, EltTy.bits .f32 = 32 ∨ (Rect.block (s := S3x128x128) S3x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x128.size a ≤ S384x128.size a
  hwx0_7 : ∀ i : grid0.Coords, EltTy.bits .f32 = 32 ∨ (Rect.block (s := S384x128) S384x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v68) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S384x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v69) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x128 : Shape := ⟨2, ![128, 128]⟩
abbrev S1x128x128 : Shape := ⟨3, ![1, 128, 128]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x384 : Shape := ⟨2, ![100000, 384]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x500000, .i32⟩
  | 2 => ⟨S2x500000, .i32⟩
  | 3 => ⟨S2x500000, .i32⟩
  | 4 => ⟨S3x128x128, .f32⟩
  | 5 => ⟨S3x128, .f32⟩
  | 6 => ⟨S3x128x128, .f32⟩
  | 7 => ⟨S384x128, .f32⟩
  | 8 => ⟨S128, .f32⟩
  | 9 => ⟨S128x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S1x128x128, .f32⟩
  | 16 => ⟨S128x128, .f32⟩
  | 17 => ⟨S1x500000, .i32⟩
  | 18 => ⟨S500000, .i32⟩
  | 19 => ⟨S1x500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S_, .f32⟩
  | 31 => ⟨S100000x128, .f32⟩
  | 32 => ⟨S500000x1, .i32⟩
  | 33 => ⟨S100000x128, .f32⟩
  | 34 => ⟨S_, .f32⟩
  | 35 => ⟨S500000, .f32⟩
  | 36 => ⟨S_, .f32⟩
  | 37 => ⟨S100000, .f32⟩
  | 38 => ⟨S500000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S100000x128, .f32⟩
  | 52 => ⟨S1x128x128, .f32⟩
  | 53 => ⟨S128x128, .f32⟩
  | 54 => ⟨S1x128, .f32⟩
  | 55 => ⟨S128, .f32⟩
  | 56 => ⟨S1x128x128, .f32⟩
  | 57 => ⟨S128x128, .f32⟩
  | 58 => ⟨S1x500000, .i32⟩
  | 59 => ⟨S500000, .i32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S_, .f32⟩
  | 72 => ⟨S100000x128, .f32⟩
  | 73 => ⟨S500000x1, .i32⟩
  | 74 => ⟨S100000x128, .f32⟩
  | 75 => ⟨S_, .f32⟩
  | 76 => ⟨S500000, .f32⟩
  | 77 => ⟨S_, .f32⟩
  | 78 => ⟨S100000, .f32⟩
  | 79 => ⟨S500000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x500000, .i32⟩
  | 100 => ⟨S500000, .i32⟩
  | 101 => ⟨S1x500000, .i32⟩
  | 102 => ⟨S500000, .i32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x128, .f32⟩
  | 112 => ⟨S_, .f32⟩
  | 113 => ⟨S100000x128, .f32⟩
  | 114 => ⟨S500000x1, .i32⟩
  | 115 => ⟨S100000x128, .f32⟩
  | 116 => ⟨S_, .f32⟩
  | 117 => ⟨S500000, .f32⟩
  | 118 => ⟨S_, .f32⟩
  | 119 => ⟨S100000, .f32⟩
  | 120 => ⟨S500000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S100000x128, .f32⟩
  | 5 => ⟨S100000x128, .f32⟩
  | 6 => ⟨S100000x384, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_4 : Ref sig .tc := ⟨.hbm, 62, rfl⟩
abbrev main_v45 : Ref sig .tc := ⟨.hbm, 63, rfl⟩
abbrev main_v46 : Ref sig .tc := ⟨.hbm, 64, rfl⟩
abbrev main_c_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_10 : Ref sig .tc := ⟨.hbm, 103, rfl⟩
abbrev main_v80 : Ref sig .tc := ⟨.hbm, 104, rfl⟩
abbrev main_v81 : Ref sig .tc := ⟨.hbm, 105, rfl⟩
abbrev main_c_11 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_13 : Ref sig .tc := ⟨.hbm, 116, rfl⟩
abbrev main_v90 : Ref sig .tc := ⟨.hbm, 117, rfl⟩
abbrev main_cst_14 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_call0_cst : Ref sig .tc := ⟨.hbm, 139, rfl⟩
abbrev main_call0_v0 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x384_d1 : Shape.Concatenates [S100000x128, S100000x128, S100000x128] S100000x384 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  dot_S100000x384_S384x128_S100000x128_1_0_0_1_n_n_wf : DotDims.WF S100000x384 S384x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.RowSpec.lean ====
/-
  One row of the relation-aware node update, as a function on the extended reals.

  For a node with feature row `xr` and per-relation neighbour means `a0 a1 a2` (each a row of 128 entries), relation
  `r` contributes the row  `a_r · W_l[r] + b_l[r] + xr · W_r[r]`;  the three rows are laid side by side into one row
  of 384 entries; a dense layer `· P1 + b1` followed by the rectifier gives the hidden row; a second dense layer
  `· P2 + b2` gives the result row.  Every sum is over the contracted axis in its natural order, and every sum and
  product is the extended reals' own: both programs compute exactly this expression tree, so no algebraic law (and
  no finiteness) is needed to join them.

  Also here: three 128-wide arrays joined along the second axis, read at an index.
-/
import proofs.«100583_j798863917140_1_alg».proof.Proof.LibDenseRows

noncomputable section

namespace Cert.SageRow

open Idealize.ShloMosaic Idealize.ShloMosaic.ValueIdx Cert.LibDenseRows

abbrev Row : Type := Fin 128 → EReal
abbrev Mat : Type := Fin 128 → Fin 128 → EReal

/-- The stacked weights `[3, 128, 128]` and biases `[3, 128]`, and relation `r`'s slice of each. -/
abbrev W3 : Type := (⟨3, ![3, 128, 128]⟩ : Shape).Idx → EReal
abbrev B3 : Type := (⟨2, ![3, 128]⟩ : Shape).Idx → EReal
abbrev matOf (W : W3) (r : Fin 3) : Mat := fun k n => W (ix3 r k n)
abbrev biasOf (b : B3) (r : Fin 3) : Row := fun n => b (ix2 r n)

/-- One relation's row: `a · W_l + b_l + x · W_r`. -/
def relRow (ar xr : Row) (Wl : Mat) (bl : Row) (Wr : Mat) : Row :=
  fun j => dense ar Wl bl j + ∑ k : Fin 128, xr k * Wr k j

/-- Three 128-wide rows side by side: entry `k` of the 384-wide row. -/
def cat3 (u0 u1 u2 : Row) (k : Fin 384) : EReal :=
  if h : k.val < 128 then u0 ⟨k.val, h⟩
  else if h2 : k.val < 256 then u1 ⟨k.val - 128, by omega⟩
  else u2 ⟨k.val - 256, by have := k.isLt; omega⟩

/-- The two dense layers over the joined row, the rectifier between them. -/
def mlpRow (cat : Fin 384 → EReal) (P1 : (Sh2 384 128).Idx → EReal) (b1 : (Sh1 128).Idx → EReal)
    (P2 : (Sh2 128 128).Idx → EReal) (b2 : (Sh1 128).Idx → EReal) : Row :=
  dense (relu (dense cat (fun k n => P1 (ix2 k n)) (fun n => b1 (ix1 n)))) (fun k n => P2 (ix2 k n)) (fun n => b2 (ix1 n))

/-- The result row of one node. -/
def outRow (xr a0 a1 a2 : Row) (Wl : W3) (bl : B3) (Wr : W3)
    (P1 : (Sh2 384 128).Idx → EReal) (b1 : (Sh1 128).Idx → EReal)
    (P2 : (Sh2 128 128).Idx → EReal) (b2 : (Sh1 128).Idx → EReal) : Row :=
  mlpRow (cat3 (relRow a0 xr (matOf Wl 0) (biasOf bl 0) (matOf Wr 0)) (relRow a1 xr (matOf Wl 1) (biasOf bl 1) (matOf Wr 1))
    (relRow a2 xr (matOf Wl 2) (biasOf bl 2) (matOf Wr 2))) P1 b1 P2 b2

/-- Row `p` of an array of `M` rows of 128 entries. -/
abbrev rowOf {M : Nat} (X : (Sh2 M 128).Idx → EReal) (p : Fin M) : Row := fun k => X (ix2 p k)

/-- The whole result: node `i 0`'s result row at column `i 1`, over the node features `x` and the three arrays of
    neighbour means. -/
def outAll {M : Nat} (x a0 a1 a2 : (Sh2 M 128).Idx → EReal) (Wl : W3) (bl : B3) (Wr : W3)
    (P1 : (Sh2 384 128).Idx → EReal) (b1 : (Sh1 128).Idx → EReal)
    (P2 : (Sh2 128 128).Idx → EReal) (b2 : (Sh1 128).Idx → EReal) : (Sh2 M 128).Idx → EReal :=
  fun i => outRow (rowOf x (i 0)) (rowOf a0 (i 0)) (rowOf a1 (i 0)) (rowOf a2 (i 0)) Wl bl Wr P1 b1 P2 b2 (i 1)

/-- Three arrays of `M` rows of 128 entries joined along the second axis, read at row `p`, column `k`: the piece
    whose span of columns holds `k`, at the column counted from that piece's first. -/
theorem concat3_apply {α : Type} {M : Nat} (a b c : (Sh2 M 128).Idx → α)
    (h : Shape.Concatenates (([⟨Sh2 M 128, a⟩, ⟨Sh2 M 128, b⟩, ⟨Sh2 M 128, c⟩] :
      List ((s : Shape) × (s.Idx → α))).map (·.1)) (Sh2 M 384) 1) (p : Fin M) (k : Fin 384) :
    concatenate (Sh2 M 384) 1 [⟨Sh2 M 128, a⟩, ⟨Sh2 M 128, b⟩, ⟨Sh2 M 128, c⟩] h (ix2 p k)
      = if h1 : k.val < 128 then a (ix2 p ⟨k.val, h1⟩)
        else if h2 : k.val < 256 then b (ix2 p ⟨k.val - 128, by omega⟩)
        else c (ix2 p ⟨k.val - 256, by have := k.isLt; omega⟩) := by
  have hk := k.isLt
  by_cases h1 : k.val < 128
  · rw [dif_pos h1]
    refine concatenate_apply_piece (1 : Fin 2) _ h (ix2 p k) 0 (by show (0 : ℕ) < 3; omega) (Sh2 M 128) a rfl rfl 0 rfl
      (ix2 p ⟨k.val, h1⟩) (fun d hd => ?_) ?_
    · match d with
      | ⟨0, _⟩ => rfl
      | ⟨1, _⟩ => exact absurd rfl hd
    · show 0 + k.val = k.val; omega
  · rw [dif_neg h1]
    by_cases h2 : k.val < 256
    · rw [dif_pos h2]
      refine concatenate_apply_piece (1 : Fin 2) _ h (ix2 p k) 1 (by show (1 : ℕ) < 3; omega) (Sh2 M 128) b rfl rfl 128 rfl
        (ix2 p ⟨k.val - 128, by omega⟩) (fun d hd => ?_) ?_
      · match d with
        | ⟨0, _⟩ => rfl
        | ⟨1, _⟩ => exact absurd rfl hd
      · show 128 + (k.val - 128) = k.val; omega
    · rw [dif_neg h2]
      refine concatenate_apply_piece (1 : Fin 2) _ h (ix2 p k) 2 (by show (2 : ℕ) < 3; omega) (Sh2 M 128) c rfl rfl 256 rfl
        (ix2 p ⟨k.val - 256, by omega⟩) (fun d hd => ?_) ?_
      · match d with
        | ⟨0, _⟩ => rfl
        | ⟨1, _⟩ => exact absurd rfl hd
      · show 256 + (k.val - 256) = k.val; omega

/-- The same along a row: the joined array's row is the three rows side by side. -/
theorem concat3_row {M : Nat} (a b c : (Sh2 M 128).Idx → EReal)
    (h : Shape.Concatenates (([⟨Sh2 M 128, a⟩, ⟨Sh2 M 128, b⟩, ⟨Sh2 M 128, c⟩] :
      List ((s : Shape) × (s.Idx → EReal))).map (·.1)) (Sh2 M 384) 1) (p : Fin M) :
    (fun k : Fin 384 => concatenate (Sh2 M 384) 1 [⟨Sh2 M 128, a⟩, ⟨Sh2 M 128, b⟩, ⟨Sh2 M 128, c⟩] h (ix2 p k))
      = cat3 (rowOf a p) (rowOf b p) (rowOf c p) := by
  funext k
  rw [concat3_apply]
  rfl

end Cert.SageRow

end
-- ==== Proof.StagedBlocks.lean ====
/-
  The staged blocks, read off the arrays as the region finds them.

  The grid has 50 points.  Point `t` stages rows `2000 t … 2000 t + 1999` of the node features and of the three arrays
  of neighbour means, and the whole weight arrays (their index maps are constant).  A block's coordinate on an axis
  is the index map's value times the block's extent plus the coordinate inside the block.  Each reading is stated
  first for any contents `X` of the window's array, then at the contents the region finds.
-/
import proofs.«100583_j798863917140_1_alg».proof.Proof.Gen.KernelIdeal.Frame
import proofs.«100583_j798863917140_1_alg».proof.Proof.RowSpec

noncomputable section

namespace Cert.KernelIdeal.ArrayValue

open Cert.KernelIdeal Cert.KernelIdeal.Gen Idealize.ShloMosaic Idealize.ShloMosaic.TcCoe Idealize.SL.Sem
open Idealize.ShloMosaic.ValueIdx Cert.LibDenseRows Cert.SageRow

variable (m : (ℓ : Loc nD τ sig) → Buf (Elt Ideal) ℓ)

/-- The printed index maps, decided over the 50 grid points: the output window and the four row windows move
    together, one block of 2000 rows a point; the weight windows stay at block 0. -/
theorem idx_facts : ∀ t : Fin cfg0.N,
    win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-! ## A row window's block at point `t`, row `p`, is row `2000 t + p` of its array -/

theorem read0_row (t : Fin cfg0.N) (X : Vec Ideal S100000x128 .f32) (p : Fin 2000) (k : Fin 128) (i : Fin 100000)
    (hi : i.val = t.val * 2000 + p.val) :
    ((cfg0.win 0).blk t).view.read (Elt Ideal) X (ix2 p k) = X (ix2 i k) := by
  show X (((cfg0.win 0).blk t).view.emb (ix2 p k)) = X (ix2 i k)
  refine congrArg X (funext fun a => Fin.ext ?_)
  obtain ⟨-, -, e0, e1, -⟩ := idx_facts t
  match a with
  | ⟨0, _⟩ => show win0_0.index t (0 : Fin 2) * 2000 + 1 * p.val = i.val; rw [e0, hi]; omega
  | ⟨1, _⟩ => show win0_0.index t (1 : Fin 2) * 128 + 1 * k.val = k.val; rw [e1]; omega

theorem blk0_row (c : Dev nD) (t : Fin cfg0.N) (p : Fin 2000) (i : Fin 100000) (hi : i.val = t.val * 2000 + p.val) :
    rowOf (M := 2000) (iblk m c 0 t) p = rowOf (M := 100000) (V m c main_arg0) i := by
  funext k
  unfold iblk
  exact read0_row t (V m c (Pipeline.arrRef spec0 0)) p k i hi

theorem read1_row (t : Fin cfg0.N) (X : Vec Ideal S100000x128 .f32) (p : Fin 2000) (k : Fin 128) (i : Fin 100000)
    (hi : i.val = t.val * 2000 + p.val) :
    ((cfg0.win 1).blk t).view.read (Elt Ideal) X (ix2 p k) = X (ix2 i k) := by
  show X (((cfg0.win 1).blk t).view.emb (ix2 p k)) = X (ix2 i k)
  refine congrArg X (funext fun a => Fin.ext ?_)
  obtain ⟨-, -, -, -, e0, e1, -⟩ := idx_facts t
  match a with
  | ⟨0, _⟩ => show win0_1.index t (0 : Fin 2) * 2000 + 1 * p.val = i.val; rw [e0, hi]; omega
  | ⟨1, _⟩ => show win0_1.index t (1 : Fin 2) * 128 + 1 * k.val = k.val; rw [e1]; omega

theorem blk1_row (c : Dev nD) (t : Fin cfg0.N) (p : Fin 2000) (i : Fin 100000) (hi : i.val = t.val * 2000 + p.val) :
    rowOf (M := 2000) (iblk m c 1 t) p = rowOf (M := 100000) (V m c main_v22) i := by
  funext k
  unfold iblk
  exact read1_row t (V m c (Pipeline.arrRef spec0 1)) p k i hi

theorem read2_row (t : Fin cfg0.N) (X : Vec Ideal S100000x128 .f32) (p : Fin 2000) (k : Fin 128) (i : Fin 100000)
    (hi : i.val = t.val * 2000 + p.val) :
    ((cfg0.win 2).blk t).view.read (Elt Ideal) X (ix2 p k) = X (ix2 i k) := by
  show X (((cfg0.win 2).blk t).view.emb (ix2 p k)) = X (ix2 i k)
  refine congrArg X (funext fun a => Fin.ext ?_)
  obtain ⟨-, -, -, -, -, -, e0, e1, -⟩ := idx_facts t
  match a with
  | ⟨0, _⟩ => show win0_2.index t (0 : Fin 2) * 2000 + 1 * p.val = i.val; rw [e0, hi]; omega
  | ⟨1, _⟩ => show win0_2.index t (1 : Fin 2) * 128 + 1 * k.val = k.val; rw [e1]; omega

theorem blk2_row (c : Dev nD) (t : Fin cfg0.N) (p : Fin 2000) (i : Fin 100000) (hi : i.val = t.val * 2000 + p.val) :
    rowOf (M := 2000) (iblk m c 2 t) p = rowOf (M := 100000) (V m c main_v45) i := by
  funext k
  unfold iblk
  exact read2_row t (V m c (Pipeline.arrRef spec0 2)) p k i hi

theorem read3_row (t : Fin cfg0.N) (X : Vec Ideal S100000x128 .f32) (p : Fin 2000) (k : Fin 128) (i : Fin 100000)
    (hi : i.val = t.val * 2000 + p.val) :
    ((cfg0.win 3).blk t).view.read (Elt Ideal) X (ix2 p k) = X (ix2 i k) := by
  show X (((cfg0.win 3).blk t).view.emb (ix2 p k)) = X (ix2 i k)
  refine congrArg X (funext fun a => Fin.ext ?_)
  obtain ⟨-, -, -, -, -, -, -, -, e0, e1, -⟩ := idx_facts t
  match a with
  | ⟨0, _⟩ => show win0_3.index t (0 : Fin 2) * 2000 + 1 * p.val = i.val; rw [e0, hi]; omega
  | ⟨1, _⟩ => show win0_3.index t (1 : Fin 2) * 128 + 1 * k.val = k.val; rw [e1]; omega

theorem blk3_row (c : Dev nD) (t : Fin cfg0.N) (p : Fin 2000) (i : Fin 100000) (hi : i.val = t.val * 2000 + p.val) :
    rowOf (M := 2000) (iblk m c 3 t) p = rowOf (M := 100000) (V m c main_v68) i := by
  funext k
  unfold iblk
  exact read3_row t (V m c (Pipeline.arrRef spec0 3)) p k i hi

/-! ## A weight window's block is its whole array at every point -/

theorem read4_eq (t : Fin cfg0.N) (X : Vec Ideal S3x128x128 .f32) : ((cfg0.win 4).blk t).view.read (Elt Ideal) X = X := by
  funext y
  show X (((cfg0.win 4).blk t).view.emb y) = X y
  refine congrArg X (funext fun a => Fin.ext ?_)
  obtain ⟨-, -, -, -, -, -, -, -, -, -, e0, e1, e2, -⟩ := idx_facts t
  match a with
  | ⟨0, _⟩ => show win0_4.index t (0 : Fin 3) * 3 + 1 * (y 0).val = (y 0).val; rw [e0]; omega
  | ⟨1, _⟩ => show win0_4.index t (1 : Fin 3) * 128 + 1 * (y 1).val = (y 1).val; rw [e1]; omega
  | ⟨2, _⟩ => show win0_4.index t (2 : Fin 3) * 128 + 1 * (y 2).val = (y 2).val; rw [e2]; omega

theorem blk4_eq (c : Dev nD) (t : Fin cfg0.N) : (iblk m c 4 t : Vec Ideal S3x128x128 .f32) = V m c main_arg4 := by
  unfold iblk
  exact read4_eq t (V m c (Pipeline.arrRef spec0 4))

theorem read5_eq (t : Fin cfg0.N) (X : Vec Ideal S3x128 .f32) : ((cfg0.win 5).blk t).view.read (Elt Ideal) X = X := by
  funext y
  show X (((cfg0.win 5).blk t).view.emb y) = X y
  refine congrArg X (funext fun a => Fin.ext ?_)
  obtain ⟨-, -, -, -, -, -, -, -, -, -, -, -, -, e0, e1, -⟩ := idx_facts t
  match a with
  | ⟨0, _⟩ => show win0_5.index t (0 : Fin 2) * 3 + 1 * (y 0).val = (y 0).val; rw [e0]; omega
  | ⟨1, _⟩ => show win0_5.index t (1 : Fin 2) * 128 + 1 * (y 1).val = (y 1).val; rw [e1]; omega

theorem blk5_eq (c : Dev nD) (t : Fin cfg0.N) : (iblk m c 5 t : Vec Ideal S3x128 .f32) = V m c main_arg5 := by
  unfold iblk
  exact read5_eq t (V m c (Pipeline.arrRef spec0 5))

theorem read6_eq (t : Fin cfg0.N) (X : Vec Ideal S3x128x128 .f32) : ((cfg0.win 6).blk t).view.read (Elt Ideal) X = X := by
  funext y
  show X (((cfg0.win 6).blk t).view.emb y) = X y
  refine congrArg X (funext fun a => Fin.ext ?_)
  obtain ⟨-, -, -, -, -, -, -, -, -, -, -, -, -, -, -, e0, e1, e2, -⟩ := idx_facts t
  match a with
  | ⟨0, _⟩ => show win0_6.index t (0 : Fin 3) * 3 + 1 * (y 0).val = (y 0).val; rw [e0]; omega
  | ⟨1, _⟩ => show win0_6.index t (1 : Fin 3) * 128 + 1 * (y 1).val = (y 1).val; rw [e1]; omega
  | ⟨2, _⟩ => show win0_6.index t (2 : Fin 3) * 128 + 1 * (y 2).val = (y 2).val; rw [e2]; omega

theorem blk6_eq (c : Dev nD) (t : Fin cfg0.N) : (iblk m c 6 t : Vec Ideal S3x128x128 .f32) = V m c main_arg6 := by
  unfold iblk
  exact read6_eq t (V m c (Pipeline.arrRef spec0 6))

theorem read7_eq (t : Fin cfg0.N) (X : Vec Ideal S384x128 .f32) : ((cfg0.win 7).blk t).view.read (Elt Ideal) X = X := by
  funext y
  show X (((cfg0.win 7).blk t).view.emb y) = X y
  refine congrArg X (funext fun a => Fin.ext ?_)
  obtain ⟨-, -, -, -, -, -, -, -, -, -, -, -, -, -, -, -, -, -, e0, e1, -⟩ := idx_facts t
  match a with
  | ⟨0, _⟩ => show win0_7.index t (0 : Fin 2) * 384 + 1 * (y 0).val = (y 0).val; rw [e0]; omega
  | ⟨1, _⟩ => show win0_7.index t (1 : Fin 2) * 128 + 1 * (y 1).val = (y 1).val; rw [e1]; omega

theorem blk7_eq (c : Dev nD) (t : Fin cfg0.N) : (iblk m c 7 t : Vec Ideal S384x128 .f32) = V m c main_arg7 := by
  unfold iblk
  exact read7_eq t (V m c (Pipeline.arrRef spec0 7))

theorem read8_eq (t : Fin cfg0.N) (X : Vec Ideal S128 .f32) : ((cfg0.win 8).blk t).view.read (Elt Ideal) X = X := by
  funext y
  show X (((cfg0.win 8).blk t).view.emb y) = X y
  refine congrArg X (funext fun a => Fin.ext ?_)
  obtain ⟨-, -, -, -, -, -, -, -, -, -, -, -, -, -, -, -, -, -, -, -, e0, -⟩ := idx_facts t
  match a with
  | ⟨0, _⟩ => show win0_8.index t (0 : Fin 1) * 128 + 1 * (y 0).val = (y 0).val; rw [e0]; omega

theorem blk8_eq (c : Dev nD) (t : Fin cfg0.N) : (iblk m c 8 t : Vec Ideal S128 .f32) = V m c main_arg8 := by
  unfold iblk
  exact read8_eq t (V m c (Pipeline.arrRef spec0 8))

theorem read9_eq (t : Fin cfg0.N) (X : Vec Ideal S128x128 .f32) : ((cfg0.win 9).blk t).view.read (Elt Ideal) X = X := by
  funext y
  show X (((cfg0.win 9).blk t).view.emb y) = X y
  refine congrArg X (funext fun a => Fin.ext ?_)
  obtain ⟨-, -, -, -, -, -, -, -, -, -, -, -, -, -, -, -, -, -, -, -, -, e0, e1, -⟩ := idx_facts t
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

theorem blk9_eq (c : Dev nD) (t : Fin cfg0.N) : (iblk m c 9 t : Vec Ideal S128x128 .f32) = V m c main_arg9 := by
  unfold iblk
  exact read9_eq t (V m c (Pipeline.arrRef spec0 9))

theorem read10_eq (t : Fin cfg0.N) (X : Vec Ideal S128 .f32) : ((cfg0.win 10).blk t).view.read (Elt Ideal) X = X := by
  funext y
  show X (((cfg0.win 10).blk t).view.emb y) = X y
  refine congrArg X (funext fun a => Fin.ext ?_)
  obtain ⟨-, -, -, -, -, -, -, -, -, -, -, -, -, -, -, -, -, -, -, -, -, -, -, e0⟩ := idx_facts t
  match a with
  | ⟨0, _⟩ => show win0_10.index t (0 : Fin 1) * 128 + 1 * (y 0).val = (y 0).val; rw [e0]; omega

theorem blk10_eq (c : Dev nD) (t : Fin cfg0.N) : (iblk m c 10 t : Vec Ideal S128 .f32) = V m c main_arg10 := by
  unfold iblk
  exact read10_eq t (V m c (Pipeline.arrRef spec0 10))

end Cert.KernelIdeal.ArrayValue

end
-- ==== Proof.KernelRow.lean ====
/-
  The kernel body's result block, read along a row of the block.

  The body computes, on a block of 2000 nodes: for each relation the block of neighbour means times that relation's
  `W_l` into a zero accumulator, plus the bias row repeated down the rows, plus the block of node features times `W_r`;
  the three 128-wide results joined along the columns; then the two dense layers with the rectifier between them.
  The changes of float format in front of every product change no entry at the extended reals.  Row `p` of the
  stored block is therefore `outRow` of row `p` of the four row-blocks and the whole weight arrays.
-/
import proofs.«100583_j798863917140_1_alg».proof.Proof.Gen.KernelIdeal.Skeleton
import proofs.«100583_j798863917140_1_alg».proof.Proof.RowSpec
import Idealize.ShloMosaic.Lib.ValueLayout

noncomputable section

namespace Cert.KernelIdeal.RowValue

open Cert.KernelIdeal Cert.KernelIdeal.Gen Idealize.ShloMosaic Idealize.ShloMosaic.ValueIdx
open Cert.LibDenseRows Cert.SageRow

/-- The block product of 2000 rows by a 128 × 128 matrix into the zero accumulator, at the body's dimension record:
    the sum over the contracted coordinate. -/
theorem mm128 {φ₁ φ₂ : FTy} (A : FVec Ideal S2000x128 φ₁) (B : FVec Ideal S128x128 φ₂) (a : Fin 2000) (b : Fin 128) :
    matmul dot_S2000x128_S128x128_S2000x128_1_0_0_1_n_n none A B (constant (F := Ideal) S2000x128 .f32 0x00000000#32) (ix2 a b)
      = ∑ c : Fin 128, A (ix2 a c) * B (ix2 c b) :=
  matmul_plain_zero_apply none A B a b

/-- One relation's block in the body's spelling, read along row `p`: the relation's row function of row `p` of the
    neighbour means `v2` and of the features `v0`, over the loaded 1 × 128 × 128 weight slices and 1 × 128 bias slice. -/
theorem pay3_row (v0 v2 : Vec Ideal S2000x128 .f32) (v9 v12 : Vec Ideal S1x128x128 .f32) (v15 : Vec Ideal S1x128 .f32)
    (p : Fin 2000) :
    (fun n : Fin 128 => k0_pay3 (F := Ideal) v0 v2 v9 v12 v15 (ix2 p n))
      = relRow (rowOf v2 p) (rowOf v0 p) (fun k n => v9 (ix3 (0 : Fin 1) k n)) (fun n => v15 (ix2 (0 : Fin 1) n))
          (fun k n => v12 (ix3 (0 : Fin 1) k n)) := by
  funext n
  unfold k0_pay3 k0_pay1 relRow dense
  dsimp only
  rw [addf_apply, addf_apply, mm128, mm128, broadcastTo_1b_ab_apply, shapeCast_a_1a_apply, shapeCast_1a_a_apply]
  simp only [truncf_apply, shapeCast_1ab_ab_apply, shapeCast_self]

/-- The body's last stretch — join, dense layer, rectifier, dense layer — over three relation blocks. -/
def kTail (r0 r1 r2 : FVec Ideal S2000x128 .f32) (v55 : Vec Ideal S384x128 .f32) (v58 : Vec Ideal S128 .f32)
    (v65 : Vec Ideal S128x128 .f32) (v68 : Vec Ideal S128 .f32) : FVec Ideal S2000x128 .f32 :=
  kDense (truncf .bf16 (kRelu (kDense
      (truncf .bf16 (concatenate S2000x384 1 [⟨S2000x128, r0⟩, ⟨S2000x128, r1⟩, ⟨S2000x128, r2⟩]
        concatenates_S2000x128_S2000x128_S2000x128_S2000x384_d1) bitsLt_bf16_f32)
      (truncf .bf16 v55 bitsLt_bf16_f32) v58 shapeCasts_S128_S1x128 broadcasts_S1x128_S2000x128)) bitsLt_bf16_f32)
    (truncf .bf16 v65 bitsLt_bf16_f32) v68 shapeCasts_S128_S1x128 broadcasts_S1x128_S2000x128

/-- Along row `p` it is the two dense layers over the three relation rows side by side. -/
theorem kTail_row (r0 r1 r2 : FVec Ideal S2000x128 .f32) (v55 : Vec Ideal S384x128 .f32) (v58 : Vec Ideal S128 .f32)
    (v65 : Vec Ideal S128x128 .f32) (v68 : Vec Ideal S128 .f32) (p : Fin 2000) :
    (fun n : Fin 128 => kTail r0 r1 r2 v55 v58 v65 v68 (ix2 p n))
      = mlpRow (cat3 (rowOf r0 p) (rowOf r1 p) (rowOf r2 p)) v55 v58 v65 v68 := by
  unfold kTail mlpRow
  rw [kDense_row]
  have e1 : (fun k : Fin 128 => (truncf .bf16 (kRelu (kDense
      (truncf .bf16 (concatenate S2000x384 1 [⟨S2000x128, r0⟩, ⟨S2000x128, r1⟩, ⟨S2000x128, r2⟩]
        concatenates_S2000x128_S2000x128_S2000x128_S2000x384_d1) bitsLt_bf16_f32)
      (truncf .bf16 v55 bitsLt_bf16_f32) v58 shapeCasts_S128_S1x128 broadcasts_S1x128_S2000x128)) bitsLt_bf16_f32
        : FVec Ideal S2000x128 .bf16) (ix2 p k))
      = relu (dense (cat3 (rowOf r0 p) (rowOf r1 p) (rowOf r2 p)) (fun k n => v55 (ix2 k n)) (fun n => v58 (ix1 n))) := by
    refine (kRelu_row _ p).trans ?_
    rw [kDense_row]
    exact congrArg (fun c => relu (dense c (fun k n => v55 (ix2 k n)) (fun n => v58 (ix1 n))))
      (concat3_row r0 r1 r2 concatenates_S2000x128_S2000x128_S2000x128_S2000x384_d1 p)
  rw [e1]
  rfl

/-- The body's stored value is that stretch over the three relations' blocks, each in the one spelling. -/
theorem pay8_eq (v0 v2 v4 v6 : Vec Ideal S2000x128 .f32) (v9 v12 v24 v27 v39 v42 : Vec Ideal S1x128x128 .f32)
    (v15 v30 v45 : Vec Ideal S1x128 .f32) (v55 : Vec Ideal S384x128 .f32) (v58 : Vec Ideal S128 .f32)
    (v65 : Vec Ideal S128x128 .f32) (v68 : Vec Ideal S128 .f32) :
    k0_pay8 (F := Ideal) (k0_pay1 v0) (k0_pay2 v6) (k0_pay3 v0 v2 v9 v12 v15) (k0_pay4 v4) (k0_pay5 v24) (k0_pay6 v27) (k0_pay7 v30)
        (constant S2000x128 .f32 0x00000000#32) v39 v42 v45 v55 v58 v65 v68
      = kTail (k0_pay3 v0 v2 v9 v12 v15) (k0_pay3 v0 v4 v24 v27 v30) (k0_pay3 v0 v6 v39 v42 v45) v55 v58 v65 v68 := rfl

/-- ROW `p` OF THE STORED BLOCK: `outRow` of row `p` of the feature block `v0` and of the three blocks of neighbour
    means `v2 v4 v6`, the weights read through the loaded slices. -/
theorem pay8_row (v0 v2 v4 v6 : Vec Ideal S2000x128 .f32) (v9 v12 v24 v27 v39 v42 : Vec Ideal S1x128x128 .f32)
    (v15 v30 v45 : Vec Ideal S1x128 .f32) (v55 : Vec Ideal S384x128 .f32) (v58 : Vec Ideal S128 .f32)
    (v65 : Vec Ideal S128x128 .f32) (v68 : Vec Ideal S128 .f32) (p : Fin 2000) :
    (fun n : Fin 128 => k0_pay8 (F := Ideal) (k0_pay1 v0) (k0_pay2 v6) (k0_pay3 v0 v2 v9 v12 v15) (k0_pay4 v4) (k0_pay5 v24)
        (k0_pay6 v27) (k0_pay7 v30) (constant S2000x128 .f32 0x00000000#32) v39 v42 v45 v55 v58 v65 v68 (ix2 p n))
      = mlpRow (cat3
          (relRow (rowOf v2 p) (rowOf v0 p) (fun k n => v9 (ix3 (0 : Fin 1) k n)) (fun n => v15 (ix2 (0 : Fin 1) n)) (fun k n => v12 (ix3 (0 : Fin 1) k n)))
          (relRow (rowOf v4 p) (rowOf v0 p) (fun k n => v24 (ix3 (0 : Fin 1) k n)) (fun n => v30 (ix2 (0 : Fin 1) n)) (fun k n => v27 (ix3 (0 : Fin 1) k n)))
          (relRow (rowOf v6 p) (rowOf v0 p) (fun k n => v39 (ix3 (0 : Fin 1) k n)) (fun n => v45 (ix2 (0 : Fin 1) n)) (fun k n => v42 (ix3 (0 : Fin 1) k n))))
          v55 v58 v65 v68 := by
  rw [pay8_eq, kTail_row]
  have e0 := pay3_row v0 v2 v9 v12 v15 p
  have e1 := pay3_row v0 v4 v24 v27 v30 p
  have e2 := pay3_row v0 v6 v39 v42 v45 p
  unfold rowOf at e0 e1 e2 ⊢
  rw [e0, e1, e2]

end Cert.KernelIdeal.RowValue

end
-- ==== Proof.KernelBlock.lean ====
/-
  What the kernel body leaves in the output window's buffer, read along a row.

  The body loads its four row-blocks, the 384 × 128 and 128 × 128 matrices and the two bias vectors whole, and the
  stacked weights one relation's slice at a time (the 1 × 128 × 128 rectangle at offset `r` on the first axis, the
  1 × 128 rectangle at offset `r`); it stores one value over the whole buffer.  So row `p` of the buffer is `outRow`
  of row `p` of the four row-blocks and the whole weight arrays.
-/
import proofs.«100583_j798863917140_1_alg».proof.Proof.Gen.KernelIdeal.Frame
import proofs.«100583_j798863917140_1_alg».proof.Proof.KernelRow
import Idealize.ShloMosaic.Lib.Pipeline.Value

noncomputable section

namespace Cert.KernelIdeal.BlockValue

open Cert.KernelIdeal Cert.KernelIdeal.Gen Idealize.ShloMosaic Idealize.ShloMosaic.ValueIdx
open Cert.LibDenseRows Cert.SageRow Cert.KernelIdeal.RowValue

theorem hz1 : (![0] : Fin 1 → Nat) = fun _ => 0 := funext fun a => by fin_cases a <;> rfl
theorem hz2 : (![0, 0] : Fin 2 → Nat) = fun _ => 0 := funext fun a => by fin_cases a <;> rfl

/-- A load of the stacked matrices through the 1 × 128 × 128 rectangle at offset `o` on the first axis reads
    relation `o`'s matrix. -/
theorem ld_mat (x : Vec Ideal S3x128x128 .f32) (o : Nat) (ho : o < 3)
    (inb : ∀ a, (![o, 0, 0] : Fin 3 → Nat) a + S1x128x128.size a ≤ S3x128x128.size a) :
    (fun k n : Fin 128 => View.ld x (Rect.unit (s := S3x128x128) ![o, 0, 0] S1x128x128.size inb) (ix3 (0 : Fin 1) k n))
      = matOf x ⟨o, ho⟩ := by
  funext k n
  show x _ = x _
  refine congrArg x (funext fun a => Fin.ext ?_)
  match a with
  | ⟨0, _⟩ => show o + 1 * 0 = o; omega
  | ⟨1, _⟩ => show 0 + 1 * k.val = k.val; omega
  | ⟨2, _⟩ => show 0 + 1 * n.val = n.val; omega

/-- A load of the stacked bias rows through the 1 × 128 rectangle at offset `o` reads relation `o`'s row. -/
theorem ld_bias (x : Vec Ideal S3x128 .f32) (o : Nat) (ho : o < 3)
    (inb : ∀ a, (![o, 0] : Fin 2 → Nat) a + S1x128.size a ≤ S3x128.size a) :
    (fun n : Fin 128 => View.ld x (Rect.unit (s := S3x128) ![o, 0] S1x128.size inb) (ix2 (0 : Fin 1) n))
      = biasOf x ⟨o, ho⟩ := by
  funext n
  show x _ = x _
  refine congrArg x (funext fun a => Fin.ext ?_)
  match a with
  | ⟨0, _⟩ => show o + 1 * 0 = o; omega
  | ⟨1, _⟩ => show 0 + 1 * n.val = n.val; omega

/-- ROW `p` OF THE OUTPUT BUFFER after the body, over the input buffers' contents. -/
theorem out_row (x0 x1 x2 x3 : Vec Ideal S2000x128 .f32) (x4 : Vec Ideal S3x128x128 .f32) (x5 : Vec Ideal S3x128 .f32)
    (x6 : Vec Ideal S3x128x128 .f32) (x7 : Vec Ideal S384x128 .f32) (x8 : Vec Ideal S128 .f32) (x9 : Vec Ideal S128x128 .f32)
    (x10 : Vec Ideal S128 .f32) (p : Fin 2000) :
    (fun n : Fin 128 => out0_11 (F := Ideal) x0 x1 x2 x3 x4 x5 x6 x7 x8 x9 x10 (ix2 p n))
      = outRow (rowOf x0 p) (rowOf x1 p) (rowOf x2 p) (rowOf x3 p) x4 x5 x6 x7 x8 x9 x10 := by
  unfold out0_11
  rw [View.canon_unit_zero hz2]
  simp only [View.ld_unit_zero (S := S2000x128) hz2, View.ld_unit_zero (S := S384x128) hz2,
    View.ld_unit_zero (S := S128) hz1, View.ld_unit_zero (S := S128x128) hz2]
  rw [pay8_row]
  unfold outRow
  rw [ld_mat x4 0 (by omega), ld_mat x4 1 (by omega), ld_mat x4 2 (by omega),
    ld_mat x6 0 (by omega), ld_mat x6 1 (by omega), ld_mat x6 2 (by omega),
    ld_bias x5 0 (by omega), ld_bias x5 1 (by omega), ld_bias x5 2 (by omega)]
  rfl

end Cert.KernelIdeal.BlockValue

end
-- ==== Proof.KernelFlush.lean ====
/-
  From the blocks to the array: what the kernel's run leaves in its result array.

  Point `t` runs the body on its staged blocks and writes the output buffer back to rows `2000 t … 2000 t + 1999` of
  the result.  Row `p` of the buffer is `outRow` of row `p` of the staged blocks (the body's value, read along a row),
  which is row `2000 t + p` of `outAll` of the whole arrays; the 50 blocks tile the result array, so the array ends
  at `outAll` of the arrays as the region finds them.
-/
import proofs.«100583_j798863917140_1_alg».proof.Proof.Gen.KernelIdeal.Value
import proofs.«100583_j798863917140_1_alg».proof.Proof.StagedBlocks
import proofs.«100583_j798863917140_1_alg».proof.Proof.KernelBlock

noncomputable section

namespace Cert.KernelIdeal.ArrayValue

open Cert.KernelIdeal Cert.KernelIdeal.Gen Idealize.ShloMosaic Idealize.ShloMosaic.TcCoe Idealize.SL.Sem
open Idealize.ShloMosaic.ValueIdx Cert.LibDenseRows Cert.SageRow Cert.KernelIdeal.BlockValue
open Idealize.ShloMosaic.Pipeline (Dat)

variable (m : (ℓ : Loc nD τ sig) → Buf (Elt Ideal) ℓ)

/-- The result array the kernel is to leave: `outAll` of the arrays as the region finds them. -/
def G (c : Dev nD) : FVec Ideal S100000x128 .f32 :=
  outAll (V m c main_arg0) (V m c main_v22) (V m c main_v45) (V m c main_v68) (V m c main_arg4) (V m c main_arg5)
    (V m c main_arg6) (V m c main_arg7) (V m c main_arg8) (V m c main_arg9) (V m c main_arg10)

/-- WHAT POINT `t` WRITES BACK is block `t` of `G`. -/
theorem flushed_eq (c : Dev nD) (t : Fin cfg0.N) :
    (dats m 0 c).flushed 11 t = ((cfg0.win 11).blk t).view.read (Elt Ideal) (G m c) := by
  rw [Value.flushed11]
  funext j
  have hp : (j 0).val < 2000 := (j 0).isLt
  have hq : (j 1).val < 128 := (j 1).isLt
  obtain ⟨p, q, rfl⟩ : ∃ (p : Fin 2000) (q : Fin 128), j = ix2 p q :=
    ⟨⟨(j 0).val, hp⟩, ⟨(j 1).val, hq⟩, funext fun a => by match a with | ⟨0, _⟩ => rfl | ⟨1, _⟩ => rfl⟩
  show out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 p q) = G m c (((cfg0.win 11).blk t).view.emb (ix2 p q))
  have ht : t.val < 50 := Nat.lt_of_lt_of_eq t.isLt N_0
  have hi : t.val * 2000 + p.val < 100000 := by have := p.isLt; omega
  obtain ⟨e0, e1, -⟩ := idx_facts t
  have hemb : ((cfg0.win 11).blk t).view.emb (ix2 p q) = (ix2 (⟨t.val * 2000 + p.val, hi⟩ : Fin 100000) q : S100000x128.Idx) :=
    funext fun a => Fin.ext (by
      match a with
      | ⟨0, _⟩ => show win0_11.index t (0 : Fin 2) * 2000 + 1 * p.val = t.val * 2000 + p.val; rw [e0]; omega
      | ⟨1, _⟩ => show win0_11.index t (1 : Fin 2) * 128 + 1 * q.val = q.val; rw [e1]; omega)
  rw [hemb]
  refine (congrFun (out_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) p) q).trans ?_
  rw [blk0_row m c t p ⟨t.val * 2000 + p.val, hi⟩ rfl, blk1_row m c t p ⟨t.val * 2000 + p.val, hi⟩ rfl,
    blk2_row m c t p ⟨t.val * 2000 + p.val, hi⟩ rfl, blk3_row m c t p ⟨t.val * 2000 + p.val, hi⟩ rfl,
    blk4_eq m c t, blk5_eq m c t, blk6_eq m c t, blk7_eq m c t, blk8_eq m c t, blk9_eq m c t, blk10_eq m c t]
  rfl

/-! ## The blocks tile the result array -/

/-- An index of the result array is in point `t`'s block iff each coordinate is in the block's range on its axis. -/
theorem mem_blk (t : Fin cfg0.N) (i : S100000x128.Idx) :
    i ∈ ((cfg0.win 11).blk t).view.set ↔ ∀ a : Fin 2, win0_11.index t a * S2000x128.size a ≤ (i a).val
      ∧ (i a).val < win0_11.index t a * S2000x128.size a + S2000x128.size a := by
  show i ∈ ((View.whole main_v69).slice (win0_11.rect t)).set ↔ _
  rw [View.set_slice_whole, Rect.mem_set_unit]
  exact Iff.rfl

/-- Row `r` is in the block of point `r / 2000`. -/
theorem cover (i : S100000x128.Idx) :
    ∃ t : Fin cfg0.N, (cfg0.win 11).flush t = true ∧ i ∈ ((cfg0.win 11).blk t).view.set := by
  have h0 : (i 0).val < 100000 := (i 0).isLt
  have h1 : (i 1).val < 128 := (i 1).isLt
  have hlt : (i 0).val / 2000 < 50 := by omega
  refine ⟨⟨(i 0).val / 2000, Nat.lt_of_lt_of_eq hlt N_0.symm⟩, flush0_11 _, ?_⟩
  rw [mem_blk]
  obtain ⟨e0, e1, -⟩ := idx_facts ⟨(i 0).val / 2000, Nat.lt_of_lt_of_eq hlt N_0.symm⟩
  intro a
  match a with
  | ⟨0, _⟩ =>
    show win0_11.index ⟨(i 0).val / 2000, Nat.lt_of_lt_of_eq hlt N_0.symm⟩ (0 : Fin 2) * 2000 ≤ (i 0).val
      ∧ (i 0).val < win0_11.index ⟨(i 0).val / 2000, Nat.lt_of_lt_of_eq hlt N_0.symm⟩ (0 : Fin 2) * 2000 + 2000
    rw [e0]
    show (i 0).val / 2000 * 2000 ≤ (i 0).val ∧ (i 0).val < (i 0).val / 2000 * 2000 + 2000
    omega
  | ⟨1, _⟩ =>
    show win0_11.index ⟨(i 0).val / 2000, Nat.lt_of_lt_of_eq hlt N_0.symm⟩ (1 : Fin 2) * 128 ≤ (i 1).val
      ∧ (i 1).val < win0_11.index ⟨(i 0).val / 2000, Nat.lt_of_lt_of_eq hlt N_0.symm⟩ (1 : Fin 2) * 128 + 128
    rw [e1]
    omega

/-- THE RESULT ARRAY after the run is `G`. -/
theorem final (c : Dev nD) : (dats m 0 c).arrAt 11 cfg0.N = G m c :=
  (dats m 0 c).arrAt_eq_of_cover 11 (G m c) (fun t _ => flushed_eq m c t) cover

end Cert.KernelIdeal.ArrayValue

end
-- ==== Proof.KernelAgg.lean ====
/-
  The three arrays of neighbour means, as the kernel's region finds them.

  In front of its one region the kernel's program computes, per relation, on the host: the edges' sources (negative
  ones wrapped by adding 100000), the gather of the features' rows at them, the scatter-addition of those rows at the
  edges' targets into zeros, the scatter-addition of ones at the targets into zeros (the count), and the quotient of
  the sums by the larger of the count and one.  The reference's program computes the same operations, spelt the same,
  as its stages `val_main_v28`, `val_main_v63`, `val_main_v98`; the arrays the region finds are those stages of the
  launch contents, and nothing here opens them.
-/
import proofs.«100583_j798863917140_1_alg».proof.Proof.Gen.KernelIdeal.Frame
import proofs.«100583_j798863917140_1_alg».proof.Proof.Gen.ReferenceIdeal.Read

noncomputable section

namespace Cert.KernelIdeal.ArrayValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 54000000 in
/-- Relation 0's neighbour means as the region finds them: the host operations' term, which is the reference's. -/
theorem V_agg0 (c : Dev nD) :
    (V m c main_v22 : FVec Ideal S100000x128 .f32)
      = Cert.ReferenceIdeal.Read.val_main_v28 (F := Ideal) (m ((c : Thread nD τ).loc main_arg0)) (m ((c : Thread nD τ).loc main_arg1)) := by
  show StableHlo.after hostOps0 (fun b => m (c, b)) (Proc.devRef .tc main_v22) = _
  after_results_simp
  rfl

set_option maxRecDepth 8192 in
set_option maxHeartbeats 54000000 in
/-- Relation 1's. -/
theorem V_agg1 (c : Dev nD) :
    (V m c main_v45 : FVec Ideal S100000x128 .f32)
      = Cert.ReferenceIdeal.Read.val_main_v63 (F := Ideal) (m ((c : Thread nD τ).loc main_arg0)) (m ((c : Thread nD τ).loc main_arg2)) := by
  show StableHlo.after hostOps0 (fun b => m (c, b)) (Proc.devRef .tc main_v45) = _
  after_results_simp
  rfl

set_option maxRecDepth 8192 in
set_option maxHeartbeats 54000000 in
/-- Relation 2's. -/
theorem V_agg2 (c : Dev nD) :
    (V m c main_v68 : FVec Ideal S100000x128 .f32)
      = Cert.ReferenceIdeal.Read.val_main_v98 (F := Ideal) (m ((c : Thread nD τ).loc main_arg0)) (m ((c : Thread nD τ).loc main_arg3)) := by
  show StableHlo.after hostOps0 (fun b => m (c, b)) (Proc.devRef .tc main_v68) = _
  after_results_simp
  rfl

end Cert.KernelIdeal.ArrayValue

end
-- ==== Proof.KernelArray.lean ====
/-
  The kernel's run, read: its result array as a function of the launch contents.

  The region finds the argument arrays as launched (no host operation writes them) and the three arrays of neighbour
  means at the reference's own stages of the launch contents; the result array ends at `outAll` of these.
-/
import proofs.«100583_j798863917140_1_alg».proof.Proof.KernelFlush
import proofs.«100583_j798863917140_1_alg».proof.Proof.KernelAgg

noncomputable section

namespace Cert.KernelIdeal.ArrayValue

open Cert.KernelIdeal Cert.KernelIdeal.Gen Idealize.ShloMosaic Idealize.ShloMosaic.TcCoe Idealize.SL.Sem
open Cert.SageRow

variable (m : (ℓ : Loc nD τ sig) → Buf (Elt Ideal) ℓ) (ρ : Dev nD → PrngReg)

/-- The result as a function of the launch contents alone. -/
def Gm (c : Dev nD) : FVec Ideal S100000x128 .f32 :=
  outAll (m ((c : Thread nD τ).loc main_arg0))
    (Cert.ReferenceIdeal.Read.val_main_v28 (F := Ideal) (m ((c : Thread nD τ).loc main_arg0)) (m ((c : Thread nD τ).loc main_arg1)))
    (Cert.ReferenceIdeal.Read.val_main_v63 (F := Ideal) (m ((c : Thread nD τ).loc main_arg0)) (m ((c : Thread nD τ).loc main_arg2)))
    (Cert.ReferenceIdeal.Read.val_main_v98 (F := Ideal) (m ((c : Thread nD τ).loc main_arg0)) (m ((c : Thread nD τ).loc main_arg3)))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

theorem G_eq (c : Dev nD) : G m c = Gm m c := by
  unfold G Gm
  rw [V_agg0 m c, V_agg1 m c, V_agg2 m c, V_main_arg0 m c, V_main_arg4 m c, V_main_arg5 m c, V_main_arg6 m c,
    V_main_arg7 m c, V_main_arg8 m c, V_main_arg9 m c, V_main_arg10 m c]

/-- The kernel's run: the result array ends at `Gm`, the arguments unchanged. -/
theorem run : θ_run defs (onTc (τ := τ) (main (F := Ideal))) ⟨m, fun _ => 0, ρ⟩ fun r => ∀ c : Dev nD,
      r.2.mem ((c : Thread nD τ).loc main_v69) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (G_eq m c)), (h c).2⟩) (Value.run_blocks m ρ)

end Cert.KernelIdeal.ArrayValue

end
-- ==== Proof.RefRow.lean ====
/-
  The reference's result, read along a row.

  The reference computes, for all 100000 nodes at once: for each relation the neighbour means times that relation's
  slice of `W_l` (a `dot_general`), plus the bias slice made a one-row matrix and repeated over the rows, plus the
  features times the slice of `W_r`; the three results joined along the columns; then the two dense layers with the
  rectifier between them.  Row `i` of its result is `outRow` of row `i` of the features and of the three arrays of
  neighbour means, which are kept as the reference's own stages (`val_main_v28`, `val_main_v63`, `val_main_v98`:
  the gather, the two scatter-additions and the quotient of each relation) and never opened.
-/
import proofs.«100583_j798863917140_1_alg».proof.Proof.Gen.ReferenceIdeal.Read
import proofs.«100583_j798863917140_1_alg».proof.Proof.RowSpec
import Idealize.ShloMosaic.Lib.ValueLayout

noncomputable section

namespace Cert.ReferenceIdeal.RowValue

open Cert.ReferenceIdeal Cert.ReferenceIdeal.Gen Cert.ReferenceIdeal.Read
open Idealize.ShloMosaic Idealize.ShloMosaic.ValueIdx Cert.LibDenseRows Cert.SageRow

/-- Slice `o` of the stacked 128 × 128 matrices, cut out and cast to a matrix, reads the stack at `(o, k, n)`. -/
theorem slice_mat (W : W3) (o : Nat) (ho : o < 3) (hs : S3x128x128.Slices ![o, 0, 0] S1x128x128)
    (hc : S1x128x128.ShapeCasts S128x128) :
    (fun k n : Fin 128 => shapeCast S128x128 (extractStridedSlice S1x128x128 ![o, 0, 0] W hs) hc (ix2 k n))
      = matOf W ⟨o, ho⟩ := by
  funext k n
  rw [shapeCast_1ab_ab_apply]
  exact extractStridedSlice_apply ![o, 0, 0] W hs (ix3 (0 : Fin 1) k n) (ix3 ⟨o, ho⟩ k n) (fun a => by
    match a with
    | ⟨0, _⟩ => show o = o + 0; omega
    | ⟨1, _⟩ => show k.val = 0 + k.val; omega
    | ⟨2, _⟩ => show n.val = 0 + n.val; omega)

/-- Slice `o` of the stacked bias rows, cut out and cast to a vector, reads the stack at `(o, n)`. -/
theorem slice_bias (b : B3) (o : Nat) (ho : o < 3) (hs : S3x128.Slices ![o, 0] S1x128) (hc : S1x128.ShapeCasts S128) :
    (fun n : Fin 128 => shapeCast S128 (extractStridedSlice S1x128 ![o, 0] b hs) hc (ix1 n)) = biasOf b ⟨o, ho⟩ := by
  funext n
  rw [shapeCast_1a_a_apply]
  exact extractStridedSlice_apply ![o, 0] b hs (ix2 (0 : Fin 1) n) (ix2 ⟨o, ho⟩ n) (fun a => by
    match a with
    | ⟨0, _⟩ => show o = o + 0; omega
    | ⟨1, _⟩ => show n.val = 0 + n.val; omega)

/-- One relation in the reference's spelling, read along row `i`. -/
theorem hRel_row (A X : FVec Ideal S100000x128 .f32) (Wl : FVec Ideal S128x128 .f32) (b : FVec Ideal S128 .f32)
    (Wr : FVec Ideal S128x128 .f32) (i : Fin 100000) :
    (fun n : Fin 128 => addf (addf (Host.dotGeneral (F := Ideal) dot_S100000x128_S128x128_S100000x128_1_0_0_1_n_n none A Wl)
        (broadcastInDim S100000x128 ![0, 1] bcast_S1x128_S100000x128_0_1 (broadcastInDim S1x128 ![1] bcast_S128_S1x128_1 b)))
        (Host.dotGeneral (F := Ideal) dot_S100000x128_S128x128_S100000x128_1_0_0_1_n_n none X Wr) (ix2 i n))
      = relRow (rowOf A i) (rowOf X i) (fun k n => Wl (ix2 k n)) (fun n => b (ix1 n)) (fun k n => Wr (ix2 k n)) := by
  funext n
  unfold relRow
  rw [addf_apply]
  exact congrArg₂ (· + ·) (congrFun (hDense_row A Wl b bcast_S128_S1x128_1 bcast_S1x128_S100000x128_0_1 i) n)
    (StackMember.dotGeneral_plain_apply none X Wr i n)

/-- Relation 0 of the reference along row `i`: its stage `val_main_v34` over the neighbour means `val_main_v28`. -/
theorem v34_row (x0 : FVec Ideal S100000x128 .f32) (x1 : IVec S2x500000 32) (x4 : FVec Ideal S3x128x128 .f32)
    (x5 : FVec Ideal S3x128 .f32) (x6 : FVec Ideal S3x128x128 .f32) (i : Fin 100000) :
    (fun n : Fin 128 => val_main_v34 (F := Ideal) x0 x1 x4 x5 x6 (ix2 i n))
      = relRow (rowOf (val_main_v28 (F := Ideal) x0 x1) i) (rowOf x0 i) (matOf x4 0) (biasOf x5 0) (matOf x6 0) := by
  unfold val_main_v34 val_main_v32 val_main_v29 val_main_v31 val_main_v30 val_main_v33
  generalize val_main_v28 (F := Ideal) x0 x1 = A
  rw [hRel_row]
  unfold val_main_v1 val_main_v0 val_main_v3 val_main_v2 val_main_v5 val_main_v4
  rw [slice_mat x4 0 (by omega), slice_bias x5 0 (by omega), slice_mat x6 0 (by omega)]
  rfl

/-- Relation 1 along row `i`. -/
theorem v69_row (x0 : FVec Ideal S100000x128 .f32) (x2 : IVec S2x500000 32) (x4 : FVec Ideal S3x128x128 .f32)
    (x5 : FVec Ideal S3x128 .f32) (x6 : FVec Ideal S3x128x128 .f32) (i : Fin 100000) :
    (fun n : Fin 128 => val_main_v69 (F := Ideal) x0 x2 x4 x5 x6 (ix2 i n))
      = relRow (rowOf (val_main_v63 (F := Ideal) x0 x2) i) (rowOf x0 i) (matOf x4 1) (biasOf x5 1) (matOf x6 1) := by
  unfold val_main_v69 val_main_v67 val_main_v64 val_main_v66 val_main_v65 val_main_v68
  generalize val_main_v63 (F := Ideal) x0 x2 = A
  rw [hRel_row]
  unfold val_main_v36 val_main_v35 val_main_v38 val_main_v37 val_main_v40 val_main_v39
  rw [slice_mat x4 1 (by omega), slice_bias x5 1 (by omega), slice_mat x6 1 (by omega)]
  rfl

/-- Relation 2 along row `i`. -/
theorem v104_row (x0 : FVec Ideal S100000x128 .f32) (x3 : IVec S2x500000 32) (x4 : FVec Ideal S3x128x128 .f32)
    (x5 : FVec Ideal S3x128 .f32) (x6 : FVec Ideal S3x128x128 .f32) (i : Fin 100000) :
    (fun n : Fin 128 => val_main_v104 (F := Ideal) x0 x3 x4 x5 x6 (ix2 i n))
      = relRow (rowOf (val_main_v98 (F := Ideal) x0 x3) i) (rowOf x0 i) (matOf x4 2) (biasOf x5 2) (matOf x6 2) := by
  unfold val_main_v104 val_main_v102 val_main_v99 val_main_v101 val_main_v100 val_main_v103
  generalize val_main_v98 (F := Ideal) x0 x3 = A
  rw [hRel_row]
  unfold val_main_v71 val_main_v70 val_main_v73 val_main_v72 val_main_v75 val_main_v74
  rw [slice_mat x4 2 (by omega), slice_bias x5 2 (by omega), slice_mat x6 2 (by omega)]
  rfl

/-- The reference's last stretch — join, dense layer, rectifier, dense layer — over three relation arrays. -/
def hTail (r0 r1 r2 : FVec Ideal S100000x128 .f32) (x7 : FVec Ideal S384x128 .f32) (x8 : FVec Ideal S128 .f32)
    (x9 : FVec Ideal S128x128 .f32) (x10 : FVec Ideal S128 .f32) : FVec Ideal S100000x128 .f32 :=
  hDense (hRelu (hDense
      (concatenate S100000x384 1 [⟨S100000x128, r0⟩, ⟨S100000x128, r1⟩, ⟨S100000x128, r2⟩]
        concatenates_S100000x128_S100000x128_S100000x128_S100000x384_d1)
      x7 x8 bcast_S128_S1x128_1 bcast_S1x128_S100000x128_0_1) bcast_S_S100000x128)
    x9 x10 bcast_S128_S1x128_1 bcast_S1x128_S100000x128_0_1

/-- Along row `i` it is the two dense layers over the three relation rows side by side. -/
theorem hTail_row (r0 r1 r2 : FVec Ideal S100000x128 .f32) (x7 : FVec Ideal S384x128 .f32) (x8 : FVec Ideal S128 .f32)
    (x9 : FVec Ideal S128x128 .f32) (x10 : FVec Ideal S128 .f32) (i : Fin 100000) :
    (fun n : Fin 128 => hTail r0 r1 r2 x7 x8 x9 x10 (ix2 i n))
      = mlpRow (cat3 (rowOf r0 i) (rowOf r1 i) (rowOf r2 i)) x7 x8 x9 x10 := by
  unfold hTail mlpRow
  rw [hDense_row, hRelu_row, hDense_row, concat3_row]

/-- The reference's result is that stretch over its three relation stages. -/
theorem v114_eq (x0 : FVec Ideal S100000x128 .f32) (x1 x2 x3 : IVec S2x500000 32) (x4 : FVec Ideal S3x128x128 .f32)
    (x5 : FVec Ideal S3x128 .f32) (x6 : FVec Ideal S3x128x128 .f32) (x7 : FVec Ideal S384x128 .f32) (x8 : FVec Ideal S128 .f32)
    (x9 : FVec Ideal S128x128 .f32) (x10 : FVec Ideal S128 .f32) :
    val_main_v114 (F := Ideal) x0 x1 x2 x3 x4 x5 x6 x7 x8 x9 x10
      = hTail (val_main_v34 (F := Ideal) x0 x1 x4 x5 x6) (val_main_v69 (F := Ideal) x0 x2 x4 x5 x6)
          (val_main_v104 (F := Ideal) x0 x3 x4 x5 x6) x7 x8 x9 x10 := by
  unfold val_main_v114 val_main_v111 val_main_v113 val_main_v112 val_main_v110 val_main_call0_v0 val_main_call0_cst
    val_main_v109 val_main_v106 val_main_v108 val_main_v107 val_main_v105
  rfl

/-- THE REFERENCE'S RESULT, index by index: `outAll` of the features, the three arrays of neighbour means (its own
    stages) and the weights. -/
theorem v114_all (x0 : FVec Ideal S100000x128 .f32) (x1 x2 x3 : IVec S2x500000 32) (x4 : FVec Ideal S3x128x128 .f32)
    (x5 : FVec Ideal S3x128 .f32) (x6 : FVec Ideal S3x128x128 .f32) (x7 : FVec Ideal S384x128 .f32) (x8 : FVec Ideal S128 .f32)
    (x9 : FVec Ideal S128x128 .f32) (x10 : FVec Ideal S128 .f32) :
    val_main_v114 (F := Ideal) x0 x1 x2 x3 x4 x5 x6 x7 x8 x9 x10
      = outAll x0 (val_main_v28 (F := Ideal) x0 x1) (val_main_v63 (F := Ideal) x0 x2) (val_main_v98 (F := Ideal) x0 x3)
          x4 x5 x6 x7 x8 x9 x10 := by
  funext j
  obtain ⟨i, n, rfl⟩ : ∃ (i : Fin 100000) (n : Fin 128), j = ix2 i n := ⟨j 0, j 1, eq_ix2 j⟩
  rw [v114_eq]
  refine (congrFun (hTail_row _ _ _ x7 x8 x9 x10 i) n).trans ?_
  have e0 : rowOf (val_main_v34 (F := Ideal) x0 x1 x4 x5 x6) i = _ := v34_row x0 x1 x4 x5 x6 i
  have e1 : rowOf (val_main_v69 (F := Ideal) x0 x2 x4 x5 x6) i = _ := v69_row x0 x2 x4 x5 x6 i
  have e2 : rowOf (val_main_v104 (F := Ideal) x0 x3 x4 x5 x6) i = _ := v104_row x0 x3 x4 x5 x6 i
  rw [e0, e1, e2]
  rfl

end Cert.ReferenceIdeal.RowValue

end
-- ==== Proof.lean ====
/-
  The kernel computes a relation-aware update of 100000 nodes with 128 features and three relations: for each relation
  the mean of the neighbours' features (a gather along the edges' sources, a scatter-addition at their targets, the
  count of each target by a second scatter-addition of ones, the quotient by the larger of the count and one), then
  per node  a_r · W_l[r] + b_l[r] + x · W_r[r],  the three results joined to 384 features, a dense layer with the
  rectifier and a second dense layer.  The neighbour means are host operations in both programs, spelt the same; the
  rest is one pipelined region over 50 blocks of 2000 nodes in the kernel, and whole-array operations in the
  reference.  Each node's result depends only on that node's row of the features and of the three means, so both
  programs leave, at row i and column j, the same function `outRow` of those rows (RowSpec): the kernel block by
  block (KernelRow, KernelBlock, KernelArray), the reference through its stages (RefRow).  The products before which
  the kernel narrows its operands to bf16 are exact at the extended reals, where a change of format changes no entry;
  the two sides are then one expression tree, and no algebraic law and no finiteness of the inputs is used.
  The two kernels' frames are the generated ones; the reference's frame is its generated run with the result dropped;
  the idealization rewrote no operation, so `preserves` holds trivially.
-/
import proofs.«100583_j798863917140_1_alg».proof.Defs
import proofs.«100583_j798863917140_1_alg».proof.Proof.Gen.Kernel
import proofs.«100583_j798863917140_1_alg».proof.Proof.Gen.Kernel.Skeleton
import proofs.«100583_j798863917140_1_alg».proof.Proof.Gen.Kernel.Launch
import proofs.«100583_j798863917140_1_alg».proof.Proof.Gen.Kernel.Points
import proofs.«100583_j798863917140_1_alg».proof.Proof.Gen.Kernel.Frame
import proofs.«100583_j798863917140_1_alg».proof.Proof.Gen.KernelIdeal
import proofs.«100583_j798863917140_1_alg».proof.Proof.Gen.KernelIdeal.Skeleton
import proofs.«100583_j798863917140_1_alg».proof.Proof.Gen.KernelIdeal.Launch
import proofs.«100583_j798863917140_1_alg».proof.Proof.Gen.KernelIdeal.Points
import proofs.«100583_j798863917140_1_alg».proof.Proof.Gen.KernelIdeal.Frame
import proofs.«100583_j798863917140_1_alg».proof.Proof.Gen.ReferenceIdeal
import proofs.«100583_j798863917140_1_alg».proof.Proof.Gen.KernelIdeal.Value
import proofs.«100583_j798863917140_1_alg».proof.Proof.Gen.ReferenceIdeal.Run
import proofs.«100583_j798863917140_1_alg».proof.Proof.Gen.ReferenceIdeal.Read
import proofs.«100583_j798863917140_1_alg».proof.Proof.Gen.Pre_finite_inputs
import proofs.«100583_j798863917140_1_alg».proof.Proof.KernelArray
import proofs.«100583_j798863917140_1_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `outAll` of the features, the three arrays of neighbour means (one term for
    both programs) and the weights, of arguments that agree. -/
theorem algebraic : Cert.algebraic_KernelIdeal_ReferenceIdeal := by
  intro m ρ m' ρ' _ hagree
  refine ⟨fun c => Cert.KernelIdeal.ArrayValue.Gm m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v114_eq, Cert.ReferenceIdeal.RowValue.v114_all,
    h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
